-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3x128 : Shape := ⟨3, ![65536, 3, 128]⟩
abbrev S12x3 : Shape := ⟨2, ![12, 3]⟩
abbrev S12 : Shape := ⟨1, ![12]⟩
abbrev S_ : Shape := ⟨0, ![]⟩

class Facts : Prop where
  bcast_S_S65536x3x128 : S_.BroadcastsInDim S65536x3x128 (![] : Fin 0 → Fin S65536x3x128.rank)
  reducesTo_S65536x3x128_S_d0_1_2 : S65536x3x128.ReducesTo [0, 1, 2] S_
  h_S_ : 0 < S_.numel
  bcast_S_S12x3 : S_.BroadcastsInDim S12x3 (![] : Fin 0 → Fin S12x3.rank)
  reducesTo_S12x3_S_d0_1 : S12x3.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_arg4 : FVec F S12 .f32) (main_v13 : IVec S_ 1) (main_v16 : IVec S12 1) : IVec S_ 1 :=
  let main_c_5 : IVec S_ 1 := constantI S_ 1 1#1
  let main_v17 : IVec S_ 1 := (fun x v => Host.reduce IntOp.andi x v reducesTo_S12_S_d0 h_S_) main_v16 main_c_5
  let main_v18 : IVec S_ 1 := andi main_v13 main_v17
  let main_v19 : FVec F S12 .f32 := Host.absf main_arg4
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  main_v23

def fn {F : FTy → Type} [FloatOps F] (main_arg0 : FVec F S65536x3x128 .f32) (main_arg1 : FVec F S12x3 .f32) (main_arg2 : FVec F S12x3 .f32) (main_arg3 : FVec F S12 .f32) (main_arg4 : FVec F S12 .f32) : IVec S_ 1 :=
  let main_v0 : FVec F S65536x3x128 .f32 := Host.absf main_arg0
  let main_cst : FVec F S_ .f32 := constant S_ .f32 0x7F800000#32
  let main_v1 : FVec F S65536x3x128 .f32 := broadcastInDim S65536x3x128 ![] bcast_S_S65536x3x128 main_cst
  let main_v2 : IVec S65536x3x128 1 := cmpf .olt main_v0 main_v1
  let main_c : IVec S_ 1 := constantI S_ 1 1#1
  let main_v3 : IVec S_ 1 := (fun x v => Host.reduce IntOp.andi x v reducesTo_S65536x3x128_S_d0_1_2 h_S_) main_v2 main_c
  let main_v4 : FVec F S12x3 .f32 := Host.absf main_arg1
  let main_cst_0 : FVec F S_ .f32 := constant S_ .f32 0x7F800000#32
  let main_v5 : FVec F S12x3 .f32 := broadcastInDim S12x3 ![] bcast_S_S12x3 main_cst_0
  let main_v6 : IVec S12x3 1 := cmpf .olt main_v4 main_v5
  let main_c_1 : IVec S_ 1 := constantI S_ 1 1#1
  let main_v7 : IVec S_ 1 := (fun x v => Host.reduce IntOp.andi x v reducesTo_S12x3_S_d0_1 h_S_) main_v6 main_c_1
  let main_v8 : IVec S_ 1 := andi main_v3 main_v7
  let main_v9 : FVec F S12x3 .f32 := Host.absf main_arg2
  let main_cst_2 : FVec F S_ .f32 := constant S_ .f32 0x7F800000#32
  let main_v10 : FVec F S12x3 .f32 := broadcastInDim S12x3 ![] bcast_S_S12x3 main_cst_2
  let main_v11 : IVec S12x3 1 := cmpf .olt main_v9 main_v10
  let main_c_3 : IVec S_ 1 := constantI S_ 1 1#1
  let main_v12 : IVec S_ 1 := (fun x v => Host.reduce IntOp.andi x v reducesTo_S12x3_S_d0_1 h_S_) main_v11 main_c_3
  let main_v13 : IVec S_ 1 := andi main_v8 main_v12
  let main_v14 : FVec F S12 .f32 := Host.absf main_arg3
  let main_cst_4 : FVec F S_ .f32 := constant S_ .f32 0x7F800000#32
  let main_v15 : FVec F S12 .f32 := broadcastInDim S12 ![] bcast_S_S12 main_cst_4
  let main_v16 : IVec S12 1 := cmpf .olt main_v14 main_v15
  fn_part1 (F := F) main_arg4 main_v13 main_v16
-- ==== Kernel.lean ====
abbrev S65536x3x128 : Shape := ⟨3, ![65536, 3, 128]⟩
abbrev S12x3 : Shape := ⟨2, ![12, 3]⟩
abbrev S12 : Shape := ⟨1, ![12]⟩
abbrev S3x3 : Shape := ⟨2, ![3, 3]⟩
abbrev S3 : Shape := ⟨1, ![3]⟩
abbrev S3x1 : Shape := ⟨2, ![3, 1]⟩
abbrev S2048x3x128 : Shape := ⟨3, ![2048, 3, 128]⟩
abbrev S2048x1x128 : Shape := ⟨3, ![2048, 1, 128]⟩
abbrev S2048x128 : Shape := ⟨2, ![2048, 128]⟩
abbrev S1x1 : Shape := ⟨2, ![1, 1]⟩

abbrev nBuf : Space → Nat
  | .hbm => 16
  | .vmem => 10
  | .smem => 0
  | _ => 0

abbrev bufTy : (tb : Table) → Fin (tcTables nBuf tb) → BufTy
  | .hbm, ⟨0, _⟩ => ⟨S65536x3x128, .f32⟩
  | .hbm, ⟨1, _⟩ => ⟨S12x3, .f32⟩
  | .hbm, ⟨2, _⟩ => ⟨S12x3, .f32⟩
  | .hbm, ⟨3, _⟩ => ⟨S12, .f32⟩
  | .hbm, ⟨4, _⟩ => ⟨S12, .f32⟩
  | .hbm, ⟨5, _⟩ => ⟨S12, .f32⟩
  | .hbm, ⟨6, _⟩ => ⟨S3x3, .f32⟩
  | .hbm, ⟨7, _⟩ => ⟨S3x3, .f32⟩
  | .hbm, ⟨8, _⟩ => ⟨S3x3, .f32⟩
  | .hbm, ⟨9, _⟩ => ⟨S3, .f32⟩
  | .hbm, ⟨10, _⟩ => ⟨S3x1, .f32⟩
  | .hbm, ⟨11, _⟩ => ⟨S3, .f32⟩
  | .hbm, ⟨12, _⟩ => ⟨S3x1, .f32⟩
  | .hbm, ⟨13, _⟩ => ⟨S3, .f32⟩
  | .hbm, ⟨14, _⟩ => ⟨S3x1, .f32⟩
  | .hbm, ⟨15, _⟩ => ⟨S65536x3x128, .f32⟩
  | .local _ .vmem, ⟨0, _⟩ => ⟨S2048x3x128, .f32⟩
  | .local _ .vmem, ⟨1, _⟩ => ⟨S2048x3x128, .f32⟩
  | .local _ .vmem, ⟨2, _⟩ => ⟨S3x3, .f32⟩
  | .local _ .vmem, ⟨3, _⟩ => ⟨S3x3, .f32⟩
  | .local _ .vmem, ⟨4, _⟩ => ⟨S3x3, .f32⟩
  | .local _ .vmem, ⟨5, _⟩ => ⟨S3x1, .f32⟩
  | .local _ .vmem, ⟨6, _⟩ => ⟨S3x1, .f32⟩
  | .local _ .vmem, ⟨7, _⟩ => ⟨S3x1, .f32⟩
  | .local _ .vmem, ⟨8, _⟩ => ⟨S2048x3x128, .f32⟩
  | .local _ .vmem, ⟨9, _⟩ => ⟨S2048x3x128, .f32⟩
  | _, _ => ⟨S65536x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x3x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S12x3_S3x3_0_0 : S12x3.Slices ![0, 0] S3x3
  slices_S12x3_S3x3_6_0 : S12x3.Slices ![6, 0] S3x3
  slices_S12x3_S3x3_9_0 : S12x3.Slices ![9, 0] S3x3
  slices_S12_S3_0 : S12.Slices ![0] S3
  shapeCasts_S3_S3x1 : S3.ShapeCasts S3x1
  slices_S12_S3_6 : S12.Slices ![6] S3
  slices_S12_S3_9 : S12.Slices ![9] S3
  inb_S2048x3x128_S2048x3x128_0_0_0 : ∀ a, (![0, 0, 0] : Fin 3 → Nat) a + S2048x3x128.size a ≤ S2048x3x128.size a
  h_S2048x3x128 : 0 < S2048x3x128.numel
  slices_S2048x3x128_o0_0_0_S2048x1x128 : S2048x3x128.Slices ![0, 0, 0] S2048x1x128
  shapeCasts_S2048x1x128_S2048x128 : S2048x1x128.ShapeCasts S2048x128
  slices_S2048x3x128_o0_1_0_S2048x1x128 : S2048x3x128.Slices ![0, 1, 0] S2048x1x128
  slices_S2048x3x128_o0_2_0_S2048x1x128 : S2048x3x128.Slices ![0, 2, 0] S2048x1x128
  inb_S3x3_S3x3_0_0 : ∀ a, (![0, 0] : Fin 2 → Nat) a + S3x3.size a ≤ S3x3.size a
  h_S3x3 : 0 < S3x3.numel
  shapeCasts_S3x3_S3x3 : S3x3.ShapeCasts S3x3
  inb_S3x1_S3x1_0_0 : ∀ a, (![0, 0] : Fin 2 → Nat) a + S3x1.size a ≤ S3x1.size a
  h_S3x1 : 0 < S3x1.numel
  shapeCasts_S3x1_S3x1 : S3x1.ShapeCasts S3x1
  slices_S3x3_o0_0_S1x1 : S3x3.Slices ![0, 0] S1x1
  inpos_S1x1_p0_0 : ∀ a, (![0, 0] : Fin 2 → Nat) a < S1x1.size a
  slices_S3x3_o0_1_S1x1 : S3x3.Slices ![0, 1] S1x1
  slices_S3x3_o0_2_S1x1 : S3x3.Slices ![0, 2] S1x1
  slices_S3x1_o0_0_S1x1 : S3x1.Slices ![0, 0] S1x1
  inb_S2048x3x128_S2048x1x128_0_0_0 : ∀ a, (![0, 0, 0] : Fin 3 → Nat) a + S2048x1x128.size a ≤ S2048x3x128.size a
  h_S2048x1x128 : 0 < S2048x1x128.numel
  shapeCasts_S2048x128_S2048x1x128 : S2048x128.ShapeCasts S2048x1x128
  slices_S3x3_o1_0_S1x1 : S3x3.Slices ![1, 0] S1x1
  slices_S3x3_o1_1_S1x1 : S3x3.Slices ![1, 1] S1x1
  slices_S3x3_o1_2_S1x1 : S3x3.Slices ![1, 2] S1x1
  slices_S3x1_o1_0_S1x1 : S3x1.Slices ![1, 0] S1x1
  inb_S2048x3x128_S2048x1x128_0_1_0 : ∀ a, (![0, 1, 0] : Fin 3 → Nat) a + S2048x1x128.size a ≤ S2048x3x128.size a
  slices_S3x3_o2_0_S1x1 : S3x3.Slices ![2, 0] S1x1
  slices_S3x3_o2_1_S1x1 : S3x3.Slices ![2, 1] S1x1
  slices_S3x3_o2_2_S1x1 : S3x3.Slices ![2, 2] S1x1
  slices_S3x1_o2_0_S1x1 : S3x1.Slices ![2, 0] S1x1
  inb_S2048x3x128_S2048x1x128_0_2_0 : ∀ a, (![0, 2, 0] : Fin 3 → Nat) a + S2048x1x128.size a ≤ S2048x3x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3x128.size a ≤ S65536x3x128.size a
  hwx0_0 : ∀ i : grid0.Coords, EltTy.bits .f32 = 32 ∨ (Rect.block (s := S65536x3x128) S2048x3x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3.size a ≤ S3x3.size a
  hwx0_1 : ∀ i : grid0.Coords, EltTy.bits .f32 = 32 ∨ (Rect.block (s := S3x3) S3x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x3.size a ≤ S3x3.size a
  hwx0_2 : ∀ i : grid0.Coords, EltTy.bits .f32 = 32 ∨ (Rect.block (s := S3x3) S3x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3.size a ≤ S3x3.size a
  hwx0_3 : ∀ i : grid0.Coords, EltTy.bits .f32 = 32 ∨ (Rect.block (s := S3x3) S3x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1.size a ≤ S3x1.size a
  hwx0_4 : ∀ i : grid0.Coords, EltTy.bits .f32 = 32 ∨ (Rect.block (s := S3x1) S3x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1.size a ≤ S3x1.size a
  hwx0_5 : ∀ i : grid0.Coords, EltTy.bits .f32 = 32 ∨ (Rect.block (s := S3x1) S3x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1.size a ≤ S3x1.size a
  hwx0_6 : ∀ i : grid0.Coords, EltTy.bits .f32 = 32 ∨ (Rect.block (s := S3x1) S3x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x3x128.size a ≤ S65536x3x128.size a
  hwx0_7 : ∀ i : grid0.Coords, EltTy.bits .f32 = 32 ∨ (Rect.block (s := S65536x3x128) S2048x3x128.size (cc0_transform_7 i) (hinb0_7 i)).WholeWords (EltTy.packing .f32)

variable [Facts₀]

abbrev win0_0 : Pipeline.Window sig grid0 :=
  Pipeline.Window.ofSpec (Memref.whole main_arg0) S2048x3x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S3x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S3x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S3x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S2048x3x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x3x128 : Shape := ⟨3, ![65536, 3, 128]⟩
abbrev S12x3 : Shape := ⟨2, ![12, 3]⟩
abbrev S12 : Shape := ⟨1, ![12]⟩
abbrev S65536x128x3 : Shape := ⟨3, ![65536, 128, 3]⟩
abbrev S65536x128x12 : Shape := ⟨3, ![65536, 128, 12]⟩
abbrev S1x1x12 : Shape := ⟨3, ![1, 1, 12]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S65536x3x128, .f32⟩
  | .hbm, ⟨1, _⟩ => ⟨S12x3, .f32⟩
  | .hbm, ⟨2, _⟩ => ⟨S12x3, .f32⟩
  | .hbm, ⟨3, _⟩ => ⟨S12, .f32⟩
  | .hbm, ⟨4, _⟩ => ⟨S12, .f32⟩
  | .hbm, ⟨5, _⟩ => ⟨S65536x128x3, .f32⟩
  | .hbm, ⟨6, _⟩ => ⟨S65536x128x12, .f32⟩
  | .hbm, ⟨7, _⟩ => ⟨S1x1x12, .f32⟩
  | .hbm, ⟨8, _⟩ => ⟨S65536x128x12, .f32⟩
  | .hbm, ⟨9, _⟩ => ⟨S65536x128x12, .f32⟩
  | .hbm, ⟨10, _⟩ => ⟨S1x1x12, .f32⟩
  | .hbm, ⟨11, _⟩ => ⟨S65536x128x12, .f32⟩
  | .hbm, ⟨12, _⟩ => ⟨S65536x128x12, .f32⟩
  | .hbm, ⟨13, _⟩ => ⟨S65536x128x3, .f32⟩
  | .hbm, ⟨14, _⟩ => ⟨S65536x128x3, .f32⟩
  | .hbm, ⟨15, _⟩ => ⟨S65536x128x3, .f32⟩
  | .hbm, ⟨16, _⟩ => ⟨S65536x128x3, .f32⟩
  | .hbm, ⟨17, _⟩ => ⟨S65536x128x3, .f32⟩
  | .hbm, ⟨18, _⟩ => ⟨S65536x128x3, .f32⟩
  | .hbm, ⟨19, _⟩ => ⟨S_, .f32⟩
  | .hbm, ⟨20, _⟩ => ⟨S65536x128x3, .f32⟩
  | .hbm, ⟨21, _⟩ => ⟨S65536x128x3, .f32⟩
  | .hbm, ⟨22, _⟩ => ⟨S_, .f32⟩
  | .hbm, ⟨23, _⟩ => ⟨S65536x128x3, .f32⟩
  | .hbm, ⟨24, _⟩ => ⟨S65536x128x3, .f32⟩
  | .hbm, ⟨25, _⟩ => ⟨S65536x128x3, .f32⟩
  | .hbm, ⟨26, _⟩ => ⟨S65536x128x3, .f32⟩
  | .hbm, ⟨27, _⟩ => ⟨S65536x128x3, .f32⟩
  | .hbm, ⟨28, _⟩ => ⟨S_, .f32⟩
  | .hbm, ⟨29, _⟩ => ⟨S65536x128x3, .f32⟩
  | .hbm, ⟨30, _⟩ => ⟨S65536x128x3, .f32⟩
  | .hbm, ⟨31, _⟩ => ⟨S_, .f32⟩
  | .hbm, ⟨32, _⟩ => ⟨S65536x128x3, .f32⟩
  | .hbm, ⟨33, _⟩ => ⟨S65536x128x3, .f32⟩
  | .hbm, ⟨34, _⟩ => ⟨S65536x128x3, .f32⟩
  | .hbm, ⟨35, _⟩ => ⟨S65536x128x3, .f32⟩
  | .hbm, ⟨36, _⟩ => ⟨S65536x128x3, .f32⟩
  | .hbm, ⟨37, _⟩ => ⟨S65536x3x128, .f32⟩
  | _, _ => ⟨S65536x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  transposes_S65536x3x128_S65536x128x3_0_2_1 : S65536x3x128.Transposes [0, 2, 1] S65536x128x3
  bcast_S12_S1x1x12_2 : S12.BroadcastsInDim S1x1x12 (![2] : Fin 1 → Fin S1x1x12.rank)
  bcast_S1x1x12_S65536x128x12_0_1_2 : S1x1x12.BroadcastsInDim S65536x128x12 (![0, 1, 2] : Fin 3 → Fin S65536x128x12.rank)
  slices_S65536x128x12_S65536x128x3_0_0_0 : S65536x128x12.Slices ![0, 0, 0] S65536x128x3
  slices_S65536x128x12_S65536x128x3_0_0_3 : S65536x128x12.Slices ![0, 0, 3] S65536x128x3
  slices_S65536x128x12_S65536x128x3_0_0_6 : S65536x128x12.Slices ![0, 0, 6] S65536x128x3
  slices_S65536x128x12_S65536x128x3_0_0_9 : S65536x128x12.Slices ![0, 0, 9] S65536x128x3
  bcast_S_S65536x128x3 : S_.BroadcastsInDim S65536x128x3 (![] : Fin 0 → Fin S65536x128x3.rank)
  transposes_S65536x128x3_S65536x3x128_0_2_1 : S65536x128x3.Transposes [0, 2, 1] S65536x3x128
  dot_S65536x128x3_S12x3_S65536x128x12_2_1_01_0_n_n_wf : DotDims.WF S65536x128x3 S12x3 S65536x128x12 [2] [1] [0, 1] [0] [] []

variable [Facts₀]

def dot_S65536x128x3_S12x3_S65536x128x12_2_1_01_0_n_n : DotDims S65536x128x3 S12x3 S65536x128x12 where
  lhsContracting := [2]
  rhsContracting := [1]
  lhsNonContracting := [0, 1]
  rhsNonContracting := [0]
  lhsBatch := []
  rhsBatch := []
  wf := dot_S65536x128x3_S12x3_S65536x128x12_2_1_01_0_n_n_wf

class Facts : Prop extends Facts₀ where

variable [Facts]
-- ==== Proof.LstmCell.lean ====
/-
  One LSTM cell step from a zero state, at every (batch, time) position separately.

  The input holds three channels per position; the twelve rows of the input weights are the four
  gates' three hidden units each, in the order input, forget, cell, output. With a zero previous cell state the
  forget gate multiplies zero and drops out, and with a zero previous hidden state so do the recurrent weights:
  hidden unit `c` at a position is
      h = sigma(o) * tanh(sigma(i) * tanh(g)),
  where each of `i`, `g`, `o` is the gate's row of the weights against the position's three channels plus the
  two biases' entries of that row. This module states that function once, over the extended reals, with the
  three products added left to right and the two biases added to each other before they join the sum; and the one
  law the comparison needs: a sum over the three channels with the biases added one after the other is the same
  number (addition on the extended reals is associative and commutative, multiplication commutative; no
  distributivity, so no finiteness, is used).
-/
import Idealize.ShloMosaic.PureOps.Ideal
import Idealize.ShloMosaic.Lib.ValueIdx

noncomputable section

namespace Cert.LstmStep

open Idealize.ShloMosaic Idealize.ShloMosaic.ValueIdx

/-- A gate's pre-activation: three weights against three channels, the products added left to right, then the bias. -/
def pre (w0 w1 w2 x0 x1 x2 b : EReal) : EReal := w0 * x0 + w1 * x1 + w2 * x2 + b

/-- The hidden value from the input, cell and output gates' pre-activations, the previous cell state being zero. -/
def cellOut (ig gg og : EReal) : EReal :=
  Ideal.logistic og * Ideal.tanh (Ideal.logistic ig * Ideal.tanh gg)

/-- Row `k + c` of the twelve gate rows: hidden unit `c` of the gate whose rows start at `k`. -/
def gateRow (k : Nat) (hk : k + 3 ≤ 12) (c : Fin 3) : Fin 12 := ⟨k + c.val, by have := c.isLt; omega⟩

abbrev SX : Shape := ⟨3, ![65536, 3, 128]⟩
abbrev SW : Shape := ⟨2, ![12, 3]⟩
abbrev SB : Shape := ⟨1, ![12]⟩

/-- Gate row `r` at batch entry `b` and time `t`: the row of `W` against the three channels, plus both biases. -/
def gate (x : SX.Idx → EReal) (W : SW.Idx → EReal) (b1 b2 : SB.Idx → EReal) (r : Fin 12) (b : Fin 65536) (t : Fin 128) : EReal :=
  pre (W (ix2 r 0)) (W (ix2 r 1)) (W (ix2 r 2)) (x (ix3 b 0 t)) (x (ix3 b 1 t)) (x (ix3 b 2 t)) (b1 (ix1 r) + b2 (ix1 r))

/-- The whole result: hidden unit `j 1` at batch entry `j 0` and time `j 2`; the input gate's rows start at 0,
    the cell gate's at 6, the output gate's at 9. -/
def out (x : SX.Idx → EReal) (W : SW.Idx → EReal) (b1 b2 : SB.Idx → EReal) : SX.Idx → EReal := fun j =>
  cellOut (gate x W b1 b2 (gateRow 0 (by omega) (j 1)) (j 0) (j 2))
    (gate x W b1 b2 (gateRow 6 (by omega) (j 1)) (j 0) (j 2))
    (gate x W b1 b2 (gateRow 9 (by omega) (j 1)) (j 0) (j 2))

/-- The channels' products summed as one finite sum, channel first in each product, and the two biases added one
    after the other, is the pre-activation above. -/
theorem pre_of_sum (xs ws : Fin 3 → EReal) (b1 b2 : EReal) :
    (∑ k : Fin 3, xs k * ws k) + b1 + b2 = pre (ws 0) (ws 1) (ws 2) (xs 0) (xs 1) (xs 2) (b1 + b2) := by
  rw [Fin.sum_univ_three, pre, add_assoc _ b1 b2, mul_comm (xs 0), mul_comm (xs 1), mul_comm (xs 2)]

/-- The pattern of 1.0 in binary32 denotes the number one. -/
theorem ofBits_one : Ideal.ofBits .f32 0x3F800000#32 = 1 := by
  simp [Ideal.ofBits, Ideal.ieee, -EReal.coe_mul]; norm_num

/-- The logistic function spelt with a quotient, an exponential and the constant one is the logistic function. -/
theorem logistic_spelt (z : EReal) :
    Ideal.div (Ideal.ofBits .f32 0x3F800000#32) (Ideal.ofBits .f32 0x3F800000#32 + Ideal.exp (-z)) = Ideal.logistic z := by
  rw [ofBits_one]; rfl

end Cert.LstmStep

end
-- ==== Proof.KernelBody.lean ====
/-
  The kernel body at an index.

  At one grid point the body holds a slab of 2048 batch entries: the input block [2048, 3, 128], the three gates'
  3x3 weight blocks (input, cell, output) and their 3x1 combined-bias blocks. It splits the input into its three
  channel planes, and for each hidden unit c = 0, 1, 2 forms the three gates' pre-activations by scalar-times-plane
  products added left to right plus the bias scalar, applies the cell function, and stores the plane as row c of
  the output block. So the output block at (p, c, q) is the cell function of row c of each weight block against
  the three channels at (p, ·, q) and entry c of each bias block: `blockOut`. Every operation is either pointwise
  or a relabelling of coordinates (a plane cut out, a unit axis dropped or added, a scalar read out of a small
  block), so each store's payload is read at an index by unfolding, and the three stores' rows tile the block.
-/
import proofs.«129223_j25434796327365_1_alg».proof.Proof.Gen.KernelIdeal.Frame
import proofs.«129223_j25434796327365_1_alg».proof.Proof.LstmCell
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.LstmStep

/-! ## Relabellings -/

/-- A [2048, 128] plane given a unit middle axis, read at (p, ·, q), is the plane at (p, q). -/
theorem addMid_apply {α : Type} (v : S2048x128.Idx → α) (h : S2048x128.ShapeCasts S2048x1x128)
    (p : Fin 2048) (z : Fin 1) (q : Fin 128) : shapeCast S2048x1x128 v h (ix3 p z q) = v (ix2 p q) := by
  refine shapeCast_apply v h (ix3 p z q) (ix2 p q) ?_
  rw [Shape.rowMajor_val_three, Shape.rowMajor_val_two]
  have hz : z.val = 0 := by have := z.isLt; omega
  show p.val * 128 + q.val = (p.val * 1 + z.val) * 128 + q.val
  rw [hz]; omega

/-- Channel plane `k` cut out of a [2048, 3, 128] block and its unit axis dropped, read at (p, q), is the block at
    (p, k, q). -/
theorem plane_apply {α : Type} (x : S2048x3x128.Idx → α) (off : Fin 3 → Nat) (hs : S2048x3x128.Slices off S2048x1x128)
    (hc : S2048x1x128.ShapeCasts S2048x128) (k : Fin 3) (h0 : off 0 = 0) (h1 : off 1 = k.val) (h2 : off 2 = 0)
    (p : Fin 2048) (q : Fin 128) :
    shapeCast S2048x128 (extractStridedSlice S2048x1x128 off x hs) hc (ix2 p q) = x (ix3 p k q) := by
  rw [shapeCast_apply _ hc (ix2 p q) (ix3 p (0 : Fin 1) q) (by
    rw [Shape.rowMajor_val_three, Shape.rowMajor_val_two]
    show (p.val * 1 + 0) * 128 + q.val = p.val * 128 + q.val
    omega)]
  exact extractStridedSlice_apply off x hs (ix3 p (0 : Fin 1) q) (ix3 p k q) (fun a => match a with
    | ⟨0, _⟩ => by show p.val = off 0 + p.val; omega
    | ⟨1, _⟩ => by show k.val = off 1 + 0; omega
    | ⟨2, _⟩ => by show q.val = off 2 + q.val; omega)

/-- The scalar read out of a small rank-two block at a fixed position. -/
theorem scalar_apply {α : Type} {n0 n1 : Nat} (w : (⟨2, ![n0, n1]⟩ : Shape).Idx → α) (off : Fin 2 → Nat)
    (hs : (⟨2, ![n0, n1]⟩ : Shape).Slices off S1x1) (hp : ∀ a, (![0, 0] : Fin 2 → Nat) a < S1x1.size a)
    (a : Fin n0) (b : Fin n1) (ha : off 0 = a.val) (hb : off 1 = b.val) :
    extractAt ![0, 0] (extractStridedSlice S1x1 off w hs) hp = w (ix2 a b) := by
  unfold extractAt extractStridedSlice
  exact congrArg w (funext fun d => Fin.ext (match d with
    | ⟨0, _⟩ => by show off 0 + 0 = a.val; omega
    | ⟨1, _⟩ => by show off 1 + 0 = b.val; omega))

/-! ## The small payloads -/

variable (x : Vec Ideal S2048x3x128 .f32) (p : Fin 2048) (q : Fin 128)

theorem chan0 : k0_pay2 (F := Ideal) x (ix2 p q) = x (ix3 p 0 q) := by
  unfold k0_pay2; exact plane_apply x ![0, 0, 0] _ _ 0 rfl rfl rfl p q
theorem chan1 : k0_pay3 (F := Ideal) x (ix2 p q) = x (ix3 p 1 q) := by
  unfold k0_pay3; exact plane_apply x ![0, 1, 0] _ _ 1 rfl rfl rfl p q
theorem chan2 : k0_pay4 (F := Ideal) x (ix2 p q) = x (ix3 p 2 q) := by
  unfold k0_pay4; exact plane_apply x ![0, 2, 0] _ _ 2 rfl rfl rfl p q

theorem wI_eq (w : Vec Ideal S3x3 .f32) : k0_pay5 (F := Ideal) w = w := by unfold k0_pay5; exact shapeCast_self w _
theorem wG_eq (w : Vec Ideal S3x3 .f32) : k0_pay6 (F := Ideal) w = w := by unfold k0_pay6; exact shapeCast_self w _
theorem wO_eq (w : Vec Ideal S3x3 .f32) : k0_pay7 (F := Ideal) w = w := by unfold k0_pay7; exact shapeCast_self w _
theorem bI_eq (b : Vec Ideal S3x1 .f32) : k0_pay8 (F := Ideal) b = b := by unfold k0_pay8; exact shapeCast_self b _
theorem bG_eq (b : Vec Ideal S3x1 .f32) : k0_pay9 (F := Ideal) b = b := by unfold k0_pay9; exact shapeCast_self b _
theorem bO_eq (b : Vec Ideal S3x1 .f32) : k0_pay10 (F := Ideal) b = b := by unfold k0_pay10; exact shapeCast_self b _

/-- Rewrite the scalar read at position (i, j) of the small block `w` as `w (ix2 i j)`. -/
macro "read_scalar " w:ident i:num j:num : tactic =>
  `(tactic| rw [scalar_apply $w ![$i, $j] _ _ $i $j rfl rfl])

variable (wi wg wo : Vec Ideal S3x3 .f32) (bi bg bo : Vec Ideal S3x1 .f32)

/-- Hidden unit 0's input-gate pre-activation. -/
theorem preI0 : k0_pay11 (F := Ideal) x wi bi (ix2 p q)
    = pre (wi (ix2 0 0)) (wi (ix2 0 1)) (wi (ix2 0 2)) (x (ix3 p 0 q)) (x (ix3 p 1 q)) (x (ix3 p 2 q)) (bi (ix2 0 0)) := by
  unfold k0_pay11 pre
  simp only [addf_apply, mulf_apply, broadcast_apply, wI_eq, bI_eq, chan0, chan1, chan2]
  read_scalar wi 0 0; read_scalar wi 0 1; read_scalar wi 0 2; read_scalar bi 0 0

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- The store of hidden unit 0: its payload at (p, ·, q). -/
theorem unit0 (z : Fin 1) :
    k0_pay14 (F := Ideal) (k0_pay2 x) (k0_pay3 x) (k0_pay4 x) (k0_pay6 wg) (k0_pay7 wo) (k0_pay9 bg) (k0_pay10 bo)
      (k0_pay11 x wi bi) (k0_pay12 x wg) (k0_pay13 wg) (ix3 p z q)
    = cellOut
        (pre (wi (ix2 0 0)) (wi (ix2 0 1)) (wi (ix2 0 2)) (x (ix3 p 0 q)) (x (ix3 p 1 q)) (x (ix3 p 2 q)) (bi (ix2 0 0)))
        (pre (wg (ix2 0 0)) (wg (ix2 0 1)) (wg (ix2 0 2)) (x (ix3 p 0 q)) (x (ix3 p 1 q)) (x (ix3 p 2 q)) (bg (ix2 0 0)))
        (pre (wo (ix2 0 0)) (wo (ix2 0 1)) (wo (ix2 0 2)) (x (ix3 p 0 q)) (x (ix3 p 1 q)) (x (ix3 p 2 q)) (bo (ix2 0 0))) := by
  unfold k0_pay14 k0_pay12 k0_pay13 cellOut
  simp only [addMid_apply, addf_apply, mulf_apply, broadcast_apply, logistic_apply, tanh_apply, wG_eq, wO_eq, bG_eq, bO_eq,
    chan0, chan1, chan2, preI0]
  unfold pre
  read_scalar wg 0 0; read_scalar wg 0 1; read_scalar wg 0 2; read_scalar bg 0 0
  read_scalar wo 0 0; read_scalar wo 0 1; read_scalar wo 0 2; read_scalar bo 0 0

/-- The store of hidden unit 1: its payload at (p, ·, q). -/
theorem unit1 (z : Fin 1) :
    k0_pay16 (F := Ideal) (k0_pay2 x) (k0_pay3 x) (k0_pay4 x) (k0_pay6 wg) (k0_pay7 wo) (k0_pay9 bg) (k0_pay10 bo)
      (k0_pay15 (k0_pay2 x) (k0_pay3 x) (k0_pay4 x) (k0_pay5 wi) (k0_pay8 bi)) (ix3 p z q)
    = cellOut
        (pre (wi (ix2 1 0)) (wi (ix2 1 1)) (wi (ix2 1 2)) (x (ix3 p 0 q)) (x (ix3 p 1 q)) (x (ix3 p 2 q)) (bi (ix2 1 0)))
        (pre (wg (ix2 1 0)) (wg (ix2 1 1)) (wg (ix2 1 2)) (x (ix3 p 0 q)) (x (ix3 p 1 q)) (x (ix3 p 2 q)) (bg (ix2 1 0)))
        (pre (wo (ix2 1 0)) (wo (ix2 1 1)) (wo (ix2 1 2)) (x (ix3 p 0 q)) (x (ix3 p 1 q)) (x (ix3 p 2 q)) (bo (ix2 1 0))) := by
  unfold k0_pay16 k0_pay15 cellOut pre
  simp only [addMid_apply, addf_apply, mulf_apply, broadcast_apply, logistic_apply, tanh_apply, wI_eq, wG_eq, wO_eq,
    bI_eq, bG_eq, bO_eq, chan0, chan1, chan2]
  read_scalar wi 1 0; read_scalar wi 1 1; read_scalar wi 1 2; read_scalar bi 1 0
  read_scalar wg 1 0; read_scalar wg 1 1; read_scalar wg 1 2; read_scalar bg 1 0
  read_scalar wo 1 0; read_scalar wo 1 1; read_scalar wo 1 2; read_scalar bo 1 0

/-- The store of hidden unit 2: its payload at (p, ·, q). -/
theorem unit2 (z : Fin 1) :
    k0_pay1 (F := Ideal) (k0_pay2 x) (k0_pay3 x) (k0_pay4 x) (k0_pay6 wg) (k0_pay7 wo) (k0_pay8 bi) (k0_pay9 bg) (k0_pay10 bo)
      (k0_pay17 (k0_pay2 x) (k0_pay3 x) (k0_pay5 wi)) (k0_pay18 (k0_pay5 wi)) (ix3 p z q)
    = cellOut
        (pre (wi (ix2 2 0)) (wi (ix2 2 1)) (wi (ix2 2 2)) (x (ix3 p 0 q)) (x (ix3 p 1 q)) (x (ix3 p 2 q)) (bi (ix2 2 0)))
        (pre (wg (ix2 2 0)) (wg (ix2 2 1)) (wg (ix2 2 2)) (x (ix3 p 0 q)) (x (ix3 p 1 q)) (x (ix3 p 2 q)) (bg (ix2 2 0)))
        (pre (wo (ix2 2 0)) (wo (ix2 2 1)) (wo (ix2 2 2)) (x (ix3 p 0 q)) (x (ix3 p 1 q)) (x (ix3 p 2 q)) (bo (ix2 2 0))) := by
  unfold k0_pay1 k0_pay17 k0_pay18 cellOut pre
  simp only [addMid_apply, addf_apply, mulf_apply, broadcast_apply, logistic_apply, tanh_apply, wI_eq, wG_eq, wO_eq,
    bI_eq, bG_eq, bO_eq, chan0, chan1, chan2]
  read_scalar wi 2 0; read_scalar wi 2 1; read_scalar wi 2 2; read_scalar bi 2 0
  read_scalar wg 2 0; read_scalar wg 2 1; read_scalar wg 2 2; read_scalar bg 2 0
  read_scalar wo 2 0; read_scalar wo 2 1; read_scalar wo 2 2; read_scalar bo 2 0

/-! ## The output block as one function of the input blocks -/

/-- The output block: at (p, c, q) the cell function of row `c` of each weight block against the three channels at
    (p, ·, q) and entry `c` of each bias block. -/
def blockOut (x : Vec Ideal S2048x3x128 .f32) (wi wg wo : Vec Ideal S3x3 .f32) (bi bg bo : Vec Ideal S3x1 .f32) :
    Vec Ideal S2048x3x128 .f32 := fun y =>
  cellOut
    (pre (wi (ix2 (y 1) 0)) (wi (ix2 (y 1) 1)) (wi (ix2 (y 1) 2)) (x (ix3 (y 0) 0 (y 2))) (x (ix3 (y 0) 1 (y 2))) (x (ix3 (y 0) 2 (y 2))) (bi (ix2 (y 1) 0)))
    (pre (wg (ix2 (y 1) 0)) (wg (ix2 (y 1) 1)) (wg (ix2 (y 1) 2)) (x (ix3 (y 0) 0 (y 2))) (x (ix3 (y 0) 1 (y 2))) (x (ix3 (y 0) 2 (y 2))) (bg (ix2 (y 1) 0)))
    (pre (wo (ix2 (y 1) 0)) (wo (ix2 (y 1) 1)) (wo (ix2 (y 1) 2)) (x (ix3 (y 0) 0 (y 2))) (x (ix3 (y 0) 1 (y 2))) (x (ix3 (y 0) 2 (y 2))) (bo (ix2 (y 1) 0)))

theorem zero3 : (![0, 0, 0] : Fin 3 → Nat) = fun _ => 0 := funext fun a => by fin_cases a <;> rfl
theorem zero2 : (![0, 0] : Fin 2 → Nat) = fun _ => 0 := funext fun a => by fin_cases a <;> rfl

/-- Row `k` of the block, as the store's rectangle embeds it. -/
theorem emb_row (k : Fin 3) (inb : ∀ a, (![0, k.val, 0] : Fin 3 → Nat) a + S2048x1x128.size a ≤ S2048x3x128.size a)
    (z : Fin 1) :
    (Rect.unit (s := S2048x3x128) ![0, k.val, 0] S2048x1x128.size inb).emb (ix3 p z q) = ix3 p k q :=
  funext fun a => Fin.ext (match a with
    | ⟨0, _⟩ => by show 0 + 1 * p.val = p.val; omega
    | ⟨1, _⟩ => by show k.val + 1 * z.val = k.val; have := z.isLt; omega
    | ⟨2, _⟩ => by show 0 + 1 * q.val = q.val; omega)

/-- What the body leaves in the output's staging buffer is `blockOut` of the input blocks: the three stores' rows
    tile the block, and each row's payload is `blockOut` on that row. -/
theorem out_apply (y : S2048x3x128.Idx) :
    out0_7 (F := Ideal) x wi wg wo bi bg bo y = blockOut x wi wg wo bi bg bo y := by
  unfold out0_7
  simp only [View.ld_unit_zero (S := S2048x3x128) zero3, View.ld_unit_zero (S := S3x3) zero2,
    View.ld_unit_zero (S := S3x1) zero2]
  refine View.canon_apply_of_pieces (blockOut x wi wg wo bi bg bo) _ ?_ y (cover0_7 _ _ _ y)
  intro pc hpc
  simp only [List.mem_cons, List.not_mem_nil, or_false] at hpc
  rcases hpc with rfl | rfl | rfl
  · intro u
    obtain ⟨p', z, q', rfl⟩ : ∃ (p' : Fin 2048) (z : Fin 1) (q' : Fin 128), u = ix3 p' z q' := ⟨u 0, u 1, u 2, eq_ix3 u⟩
    refine (unit2 x p' q' wi wg wo bi bg bo z).trans ?_
    have e : r0_5.emb (ix3 p' z q') = ix3 p' 2 q' := emb_row p' q' 2 _ z
    exact ((congrArg (blockOut x wi wg wo bi bg bo) e).trans rfl).symm
  · intro u
    obtain ⟨p', z, q', rfl⟩ : ∃ (p' : Fin 2048) (z : Fin 1) (q' : Fin 128), u = ix3 p' z q' := ⟨u 0, u 1, u 2, eq_ix3 u⟩
    refine (unit1 x p' q' wi wg wo bi bg bo z).trans ?_
    have e : r0_4.emb (ix3 p' z q') = ix3 p' 1 q' := emb_row p' q' 1 _ z
    exact ((congrArg (blockOut x wi wg wo bi bg bo) e).trans rfl).symm
  · intro u
    obtain ⟨p', z, q', rfl⟩ : ∃ (p' : Fin 2048) (z : Fin 1) (q' : Fin 128), u = ix3 p' z q' := ⟨u 0, u 1, u 2, eq_ix3 u⟩
    refine (unit0 x p' q' wi wg wo bi bg bo z).trans ?_
    have e : r0_3.emb (ix3 p' z q') = ix3 p' 0 q' := emb_row p' q' 0 _ z
    exact ((congrArg (blockOut x wi wg wo bi bg bo) e).trans rfl).symm

end Cert.KernelIdeal.Body

end
-- ==== Proof.KernelArray.lean ====
/-
  From the blocks to the whole result array.

  The grid has 32 points; point t stages rows 2048 t … 2048 t + 2047 of the input (all three channels, all 128
  times) and writes back the same rows of the result. The six small windows are whole arrays, the same at every
  point: rows 0–2, 6–8 and 9–11 of the input weights (the input, cell and output gates), and the same rows of the
  sum of the two bias vectors, as columns. So the block a point writes back, `blockOut` of its staged blocks, is
  that point's rows of ONE function of the argument arrays, the specification's `out`: the weight block's row c is
  gate row (0 | 6 | 9) + c, the bias block's entry c the two biases' entries of that row added, the input block's
  row p batch entry 2048 t + p. The 32 blocks tile the batch axis, so after the run the result array is `out`.
-/
import proofs.«129223_j25434796327365_1_alg».proof.Proof.Gen.KernelIdeal.Value
import proofs.«129223_j25434796327365_1_alg».proof.Proof.KernelBody
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx Cert.LstmStep
open Idealize.ShloMosaic.StableHlo
open Idealize.ShloMosaic.Pipeline (Dat)

variable (m : (ℓ : Loc nD τ sig) → Buf (Elt Ideal) ℓ) (ρ : Dev nD → PrngReg)

/-- The four arguments the result depends on, as launched. -/
abbrev argX (c : Dev nD) : S65536x3x128.Idx → EReal := m ((c : Thread nD τ).loc main_arg0)
abbrev argW (c : Dev nD) : S12x3.Idx → EReal := m ((c : Thread nD τ).loc main_arg1)
abbrev argB1 (c : Dev nD) : S12.Idx → EReal := m ((c : Thread nD τ).loc main_arg3)
abbrev argB2 (c : Dev nD) : S12.Idx → EReal := m ((c : Thread nD τ).loc main_arg4)

/-! ## What the region finds in the small windows' arrays -/

theorem V_wI (c : Dev nD) : (V m c main_v1 : S3x3.Idx → EReal)
    = extractStridedSlice S3x3 ![0, 0] (argW m c) slices_S12x3_S3x3_0_0 := by
  dsimp only [Gen.V, Gen.hostOps0]; after_results
theorem V_wG (c : Dev nD) : (V m c main_v2 : S3x3.Idx → EReal)
    = extractStridedSlice S3x3 ![6, 0] (argW m c) slices_S12x3_S3x3_6_0 := by
  dsimp only [Gen.V, Gen.hostOps0]; after_results
theorem V_wO (c : Dev nD) : (V m c main_v3 : S3x3.Idx → EReal)
    = extractStridedSlice S3x3 ![9, 0] (argW m c) slices_S12x3_S3x3_9_0 := by
  dsimp only [Gen.V, Gen.hostOps0]; after_results
theorem V_bI (c : Dev nD) : (V m c main_v5 : S3x1.Idx → EReal)
    = shapeCast S3x1 (extractStridedSlice S3 ![0] (addf (F := Ideal) (φ := .f32) (argB1 m c) (argB2 m c)) slices_S12_S3_0) shapeCasts_S3_S3x1 := by
  dsimp only [Gen.V, Gen.hostOps0]; after_results; rfl
theorem V_bG (c : Dev nD) : (V m c main_v7 : S3x1.Idx → EReal)
    = shapeCast S3x1 (extractStridedSlice S3 ![6] (addf (F := Ideal) (φ := .f32) (argB1 m c) (argB2 m c)) slices_S12_S3_6) shapeCasts_S3_S3x1 := by
  dsimp only [Gen.V, Gen.hostOps0]; after_results; rfl
theorem V_bO (c : Dev nD) : (V m c main_v9 : S3x1.Idx → EReal)
    = shapeCast S3x1 (extractStridedSlice S3 ![9] (addf (F := Ideal) (φ := .f32) (argB1 m c) (argB2 m c)) slices_S12_S3_9) shapeCasts_S3_S3x1 := by
  dsimp only [Gen.V, Gen.hostOps0]; after_results; rfl

/-- Three rows of the weights starting at row `o`, read at (r, k): gate row `o + r`, channel `k`. -/
theorem wrows_apply (W : S12x3.Idx → EReal) (o : Nat) (ho : o + 3 ≤ 12) (hs : S12x3.Slices ![o, 0] S3x3) (r k : Fin 3) :
    extractStridedSlice S3x3 ![o, 0] W hs (ix2 r k) = W (ix2 (gateRow o ho r) k) :=
  extractStridedSlice_apply _ W hs (ix2 r k) (ix2 (gateRow o ho r) k) (fun a => match a with
    | ⟨0, _⟩ => rfl
    | ⟨1, _⟩ => by show k.val = 0 + k.val; omega)

/-- Three entries of the summed biases starting at `o`, as a column, read at (r, ·): both biases' entries of gate
    row `o + r`, added. -/
theorem brows_apply (b1 b2 : S12.Idx → EReal) (o : Nat) (ho : o + 3 ≤ 12) (hs : S12.Slices ![o] S3)
    (hc : S3.ShapeCasts S3x1) (r : Fin 3) (z : Fin 1) :
    shapeCast S3x1 (extractStridedSlice S3 ![o] (addf (F := Ideal) (φ := .f32) b1 b2) hs) hc (ix2 r z)
      = b1 (ix1 (gateRow o ho r)) + b2 (ix1 (gateRow o ho r)) := by
  rw [shapeCast_apply _ hc (ix2 r z) (ix1 r) (by
    rw [Shape.rowMajor_val_one, Shape.rowMajor_val_two]
    have hz : z.val = 0 := by have := z.isLt; omega
    show r.val = r.val * 1 + z.val
    omega)]
  rw [extractStridedSlice_apply _ _ hs (ix1 r) (ix1 (gateRow o ho r)) (fun a => match a with
    | ⟨0, _⟩ => rfl)]
  rfl

/-! ## The staged blocks -/

/-- The printed index maps over the grid: the input and the result move one block of 2048 rows per point; the small
    windows stay at block (0, 0). -/
theorem idx_facts : ∀ t : Fin cfg0.N,
    (win0_0.index t (0 : Fin 3) = t.val ∧ win0_0.index t (1 : Fin 3) = 0 ∧ win0_0.index t (2 : Fin 3) = 0)
    ∧ (win0_7.index t (0 : Fin 3) = t.val ∧ win0_7.index t (1 : Fin 3) = 0 ∧ win0_7.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Batch entry `2048 t + p`: row `p` of point `t`'s slab. -/
def slabRow (t : Fin cfg0.N) (p : Fin 2048) : Fin 65536 :=
  ⟨t.val * 2048 + p.val, by have := t.isLt; have hN : cfg0.N = 32 := N_0; have := p.isLt; omega⟩

/-- The input block at point `t`: rows `2048 t …` of the input. -/
theorem xblk (c : Dev nD) (t : Fin cfg0.N) (p : Fin 2048) (k : Fin 3) (q : Fin 128) :
    (iblk m c 0 t : Vec Ideal S2048x3x128 .f32) (ix3 p k q) = argX m c (ix3 (slabRow t p) k q) := by
  obtain ⟨⟨e0, e1, e2⟩, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 2048 + 1 * p.val = t.val * 2048 + p.val; rw [e0]; omega
  | ⟨1, _⟩ => show win0_0.index t (1 : Fin 3) * 3 + 1 * k.val = k.val; rw [e1]; omega
  | ⟨2, _⟩ => show win0_0.index t (2 : Fin 3) * 128 + 1 * q.val = q.val; rw [e2]; omega

/-- The input gate's weight block: gate rows 0–2. -/
theorem wIblk (c : Dev nD) (t : Fin cfg0.N) (r k : Fin 3) :
    (iblk m c 1 t : Vec Ideal S3x3 .f32) (ix2 r k) = argW m c (ix2 (gateRow 0 (by omega) r) k) := by
  obtain ⟨-, -, ⟨e0, e1⟩, -⟩ := idx_facts t
  unfold iblk
  rw [View.read_apply]
  show V m c main_v1 _ = _
  rw [V_wI]
  refine (congrArg _ ?_).trans (wrows_apply (argW m c) 0 (by omega) _ r k)
  funext a
  apply Fin.ext
  match a with
  | ⟨0, _⟩ => show win0_1.index t (0 : Fin 2) * 3 + 1 * r.val = r.val; rw [e0]; omega
  | ⟨1, _⟩ => show win0_1.index t (1 : Fin 2) * 3 + 1 * k.val = k.val; rw [e1]; omega

/-- The cell gate's weight block: gate rows 6–8. -/
theorem wGblk (c : Dev nD) (t : Fin cfg0.N) (r k : Fin 3) :
    (iblk m c 2 t : Vec Ideal S3x3 .f32) (ix2 r k) = argW m c (ix2 (gateRow 6 (by omega) r) k) := by
  obtain ⟨-, -, -, ⟨e0, e1⟩, -⟩ := idx_facts t
  unfold iblk
  rw [View.read_apply]
  show V m c main_v2 _ = _
  rw [V_wG]
  refine (congrArg _ ?_).trans (wrows_apply (argW m c) 6 (by omega) _ r k)
  funext a
  apply Fin.ext
  match a with
  | ⟨0, _⟩ => show win0_2.index t (0 : Fin 2) * 3 + 1 * r.val = r.val; rw [e0]; omega
  | ⟨1, _⟩ => show win0_2.index t (1 : Fin 2) * 3 + 1 * k.val = k.val; rw [e1]; omega

/-- The output gate's weight block: gate rows 9–11. -/
theorem wOblk (c : Dev nD) (t : Fin cfg0.N) (r k : Fin 3) :
    (iblk m c 3 t : Vec Ideal S3x3 .f32) (ix2 r k) = argW m c (ix2 (gateRow 9 (by omega) r) k) := by
  obtain ⟨-, -, -, -, ⟨e0, e1⟩, -⟩ := idx_facts t
  unfold iblk
  rw [View.read_apply]
  show V m c main_v3 _ = _
  rw [V_wO]
  refine (congrArg _ ?_).trans (wrows_apply (argW m c) 9 (by omega) _ r k)
  funext a
  apply Fin.ext
  match a with
  | ⟨0, _⟩ => show win0_3.index t (0 : Fin 2) * 3 + 1 * r.val = r.val; rw [e0]; omega
  | ⟨1, _⟩ => show win0_3.index t (1 : Fin 2) * 3 + 1 * k.val = k.val; rw [e1]; omega

/-- The input gate's bias block: both biases' entries 0–2, added. -/
theorem bIblk (c : Dev nD) (t : Fin cfg0.N) (r : Fin 3) (z : Fin 1) :
    (iblk m c 4 t : Vec Ideal S3x1 .f32) (ix2 r z)
      = argB1 m c (ix1 (gateRow 0 (by omega) r)) + argB2 m c (ix1 (gateRow 0 (by omega) r)) := by
  obtain ⟨-, -, -, -, -, ⟨e0, e1⟩, -⟩ := idx_facts t
  unfold iblk
  rw [View.read_apply]
  show V m c main_v5 _ = _
  rw [V_bI]
  refine (congrArg _ ?_).trans (brows_apply (argB1 m c) (argB2 m c) 0 (by omega) _ _ r z)
  funext a
  apply Fin.ext
  match a with
  | ⟨0, _⟩ => show win0_4.index t (0 : Fin 2) * 3 + 1 * r.val = r.val; rw [e0]; omega
  | ⟨1, _⟩ => show win0_4.index t (1 : Fin 2) * 1 + 1 * z.val = z.val; rw [e1]; omega

/-- The cell gate's bias block: entries 6–8. -/
theorem bGblk (c : Dev nD) (t : Fin cfg0.N) (r : Fin 3) (z : Fin 1) :
    (iblk m c 5 t : Vec Ideal S3x1 .f32) (ix2 r z)
      = argB1 m c (ix1 (gateRow 6 (by omega) r)) + argB2 m c (ix1 (gateRow 6 (by omega) r)) := by
  obtain ⟨-, -, -, -, -, -, ⟨e0, e1⟩, -⟩ := idx_facts t
  unfold iblk
  rw [View.read_apply]
  show V m c main_v7 _ = _
  rw [V_bG]
  refine (congrArg _ ?_).trans (brows_apply (argB1 m c) (argB2 m c) 6 (by omega) _ _ r z)
  funext a
  apply Fin.ext
  match a with
  | ⟨0, _⟩ => show win0_5.index t (0 : Fin 2) * 3 + 1 * r.val = r.val; rw [e0]; omega
  | ⟨1, _⟩ => show win0_5.index t (1 : Fin 2) * 1 + 1 * z.val = z.val; rw [e1]; omega

/-- The output gate's bias block: entries 9–11. -/
theorem bOblk (c : Dev nD) (t : Fin cfg0.N) (r : Fin 3) (z : Fin 1) :
    (iblk m c 6 t : Vec Ideal S3x1 .f32) (ix2 r z)
      = argB1 m c (ix1 (gateRow 9 (by omega) r)) + argB2 m c (ix1 (gateRow 9 (by omega) r)) := by
  obtain ⟨-, -, -, -, -, -, -, ⟨e0, e1⟩⟩ := idx_facts t
  unfold iblk
  rw [View.read_apply]
  show V m c main_v9 _ = _
  rw [V_bO]
  refine (congrArg _ ?_).trans (brows_apply (argB1 m c) (argB2 m c) 9 (by omega) _ _ r z)
  funext a
  apply Fin.ext
  match a with
  | ⟨0, _⟩ => show win0_6.index t (0 : Fin 2) * 3 + 1 * r.val = r.val; rw [e0]; omega
  | ⟨1, _⟩ => show win0_6.index t (1 : Fin 2) * 1 + 1 * z.val = z.val; rw [e1]; omega

/-! ## What a point writes back, the cover, the array after the run -/

/-- Point `t` writes back its rows of `out` of the arguments. -/
theorem flushed_eq (c : Dev nD) (t : Fin cfg0.N) :
    (dats m 0 c).flushed 7 t
      = ((cfg0.win 7).blk t).view.read (Elt Ideal) (out (argX m c) (argW m c) (argB1 m c) (argB2 m c)) := by
  obtain ⟨-, ⟨e0, e1, e2⟩, -⟩ := idx_facts t
  rw [flushed7]
  refine funext fun (j : S2048x3x128.Idx) => ?_
  obtain ⟨p, k, q, rfl⟩ : ∃ (p : Fin 2048) (k : Fin 3) (q : Fin 128), j = ix3 p k q := ⟨j 0, j 1, j 2, eq_ix3 j⟩
  rw [View.read_apply]
  have hemb : ((cfg0.win 7).blk t).view.emb (ix3 p k q) = (ix3 (slabRow t p) k q : S65536x3x128.Idx) :=
    funext fun a => Fin.ext (match a with
      | ⟨0, _⟩ => by show win0_7.index t (0 : Fin 3) * 2048 + 1 * p.val = t.val * 2048 + p.val; rw [e0]; omega
      | ⟨1, _⟩ => by show win0_7.index t (1 : Fin 3) * 3 + 1 * k.val = k.val; rw [e1]; omega
      | ⟨2, _⟩ => by show win0_7.index t (2 : Fin 3) * 128 + 1 * q.val = q.val; rw [e2]; omega)
  show out0_7 (iblk m c 0 t) (iblk m c 1 t) (iblk m c 2 t) (iblk m c 3 t) (iblk m c 4 t) (iblk m c 5 t) (iblk m c 6 t) (ix3 p k q)
    = out (argX m c) (argW m c) (argB1 m c) (argB2 m c) (((cfg0.win 7).blk t).view.emb (ix3 p k q))
  rw [hemb, out_apply]
  unfold blockOut out gate
  simp only [xblk, wIblk, wGblk, wOblk, bIblk, bGblk, bOblk]

/-- An index of the result array is in point `t`'s block iff each coordinate is in the block's range on its axis. -/
theorem mem_blk (t : Fin cfg0.N) (i : S65536x3x128.Idx) :
    i ∈ ((cfg0.win 7).blk t).view.set ↔ ∀ a : Fin 3, win0_7.index t a * S2048x3x128.size a ≤ (i a).val ∧ (i a).val < win0_7.index t a * S2048x3x128.size a + S2048x3x128.size a := by
  show i ∈ ((View.whole main_v10).slice (win0_7.rect t)).set ↔ _
  rw [View.set_slice_whole, Rect.mem_set_unit]
  exact Iff.rfl

/-- Every index of the result array is in the block of the point its batch entry falls in. -/
theorem cover (i : S65536x3x128.Idx) :
    ∃ t : Fin cfg0.N, (cfg0.win 7).flush t = true ∧ i ∈ ((cfg0.win 7).blk t).view.set := by
  have hi0 : (i 0).val < 65536 := (i 0).isLt
  have hi1 : (i 1).val < 3 := (i 1).isLt
  have hi2 : (i 2).val < 128 := (i 2).isLt
  have hN : cfg0.N = 32 := N_0
  obtain ⟨t, ht⟩ : ∃ t : Fin cfg0.N, t.val = (i 0).val / 2048 := ⟨⟨(i 0).val / 2048, by omega⟩, rfl⟩
  obtain ⟨-, ⟨e0, e1, e2⟩, -⟩ := idx_facts t
  refine ⟨t, flush0_7 t, ?_⟩
  rw [mem_blk]
  intro a
  match a with
  | ⟨0, _⟩ => show win0_7.index t (0 : Fin 3) * 2048 ≤ (i 0).val ∧ (i 0).val < win0_7.index t (0 : Fin 3) * 2048 + 2048; rw [e0, ht]; omega
  | ⟨1, _⟩ => show win0_7.index t (1 : Fin 3) * 3 ≤ (i 1).val ∧ (i 1).val < win0_7.index t (1 : Fin 3) * 3 + 3; rw [e1]; omega
  | ⟨2, _⟩ => show win0_7.index t (2 : Fin 3) * 128 ≤ (i 2).val ∧ (i 2).val < win0_7.index t (2 : Fin 3) * 128 + 128; rw [e2]; omega

/-- So the result array ends holding `out` of the arguments. -/
theorem final (c : Dev nD) :
    (dats m 0 c).arrAt 7 cfg0.N = out (argX m c) (argW m c) (argB1 m c) (argB2 m c) :=
  (dats m 0 c).arrAt_eq_of_cover 7 (out (argX m c) (argW m c) (argB1 m c) (argB2 m c)) (fun t _ => flushed_eq m c t) cover

/-- The kernel's run: the result at `out` of the arguments, the arguments unchanged. -/
theorem run : θ_run defs (onTc (τ := τ) (main (F := Ideal))) ⟨m, fun _ => 0, ρ⟩ fun r => ∀ c : Dev nD,
      r.2.mem ((c : Thread nD τ).loc main_v10) = out (argX m c) (argW m c) (argB1 m c) (argB2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.RefSide.lean ====
/-
  The reference, read at an index.

  The reference moves the channel axis last, multiplies every position's three channels into all twelve gate
  rows at once (one contraction over the channel), adds the two bias vectors one after the other, cuts the twelve
  columns into the four gates, applies the logistic function (spelt as 1 / (1 + exp (-z))) and tanh, and moves
  the hidden axis back. Read at result index (b, c, t) every layout step only renames coordinates: the entry is
  the cell function of gate rows c, 6 + c and 9 + c at batch entry b and time t, which is the specification's
  `out`. The only arithmetic step is `pre_of_sum`: the contraction's three-term sum with the biases added in turn
  is the left-to-right sum with the biases added first.
-/
import proofs.«129223_j25434796327365_1_alg».proof.Proof.Gen.ReferenceIdeal.Read
import proofs.«129223_j25434796327365_1_alg».proof.Proof.LstmCell

noncomputable section

namespace Cert.ReferenceIdeal.RefValue

open Cert.ReferenceIdeal Cert.ReferenceIdeal.Read Idealize.ShloMosaic Idealize.ShloMosaic.ValueIdx Cert.LstmStep

/-- The twelve gates' pre-activations before the split, at batch entry `b`, time `t`, gate row `r`. -/
theorem gates_apply (x0 : S65536x3x128.Idx → EReal) (x1 : S12x3.Idx → EReal) (x3 x4 : S12.Idx → EReal)
    (b : Fin 65536) (t : Fin 128) (r : Fin 12) :
    val_main_v7 (F := Ideal) x0 x1 x3 x4 (ix3 b t r) = gate x0 x1 x3 x4 r b t := by
  have ex : ∀ k : Fin 3, idx_main_v0 (lidx_main_v1 (ix3 b t r) k) = ix3 b k t := fun k => funext fun a =>
    match a with | ⟨0, _⟩ => rfl | ⟨1, _⟩ => rfl | ⟨2, _⟩ => rfl
  have ew : ∀ k : Fin 3, ridx_main_v1 (ix3 b t r) k = ix2 r k := fun k => funext fun a =>
    match a with | ⟨0, _⟩ => rfl | ⟨1, _⟩ => rfl
  have e3 : idx_main_v2 (idx_main_v3 (ix3 b t r)) = ix1 r := funext fun a => match a with | ⟨0, _⟩ => rfl
  have e4 : idx_main_v5 (idx_main_v6 (ix3 b t r)) = ix1 r := funext fun a => match a with | ⟨0, _⟩ => rfl
  rw [val_main_v7_apply, val_main_v4_apply, val_main_v1_apply, val_main_v3_apply, val_main_v2_apply,
    val_main_v6_apply, val_main_v5_apply]
  simp only [val_main_v0_apply, ex, ew, e3, e4, Ideal.addf_def]
  exact pre_of_sum (fun k => x0 (ix3 b k t)) (fun k => x1 (ix2 r k)) (x3 (ix1 r)) (x4 (ix1 r))

/-- The reference's result is the specification's `out` of the arguments. -/
theorem ref_eq (x0 : S65536x3x128.Idx → EReal) (x1 : S12x3.Idx → EReal) (x3 x4 : S12.Idx → EReal) :
    val_main_v28 (F := Ideal) x0 x1 x3 x4 = out x0 x1 x3 x4 := by
  funext i
  obtain ⟨b, c, t, rfl⟩ : ∃ (b : Fin 65536) (c : Fin 3) (t : Fin 128), i = ix3 b c t := ⟨i 0, i 1, i 2, eq_ix3 i⟩
  have ei : idx_main_v8 (idx_main_v28 (ix3 b c t)) = ix3 b t (gateRow 0 (by omega) c) := funext fun a =>
    match a with | ⟨0, _⟩ => rfl | ⟨1, _⟩ => rfl | ⟨2, _⟩ => Fin.ext (Nat.zero_add _).symm
  have eg : idx_main_v10 (idx_main_v28 (ix3 b c t)) = ix3 b t (gateRow 6 (by omega) c) := funext fun a =>
    match a with | ⟨0, _⟩ => rfl | ⟨1, _⟩ => rfl | ⟨2, _⟩ => rfl
  have eo : idx_main_v11 (idx_main_v28 (ix3 b c t)) = ix3 b t (gateRow 9 (by omega) c) := funext fun a =>
    match a with | ⟨0, _⟩ => rfl | ⟨1, _⟩ => rfl | ⟨2, _⟩ => rfl
  rw [val_main_v28_apply]
  simp only [val_main_v27_apply, val_main_v26_apply, val_main_v25_apply, val_main_v24_apply, val_main_v23_apply,
    val_main_v22_apply, val_main_v21_apply, val_main_v20_apply, val_main_v19_apply, val_main_v18_apply,
    val_main_v17_apply, val_main_v16_apply, val_main_v15_apply, val_main_v14_apply, val_main_v13_apply,
    val_main_v12_apply, val_main_v11_apply, val_main_v10_apply, val_main_v8_apply,
    val_main_cst_apply, val_main_cst_0_apply, val_main_cst_1_apply, val_main_cst_2_apply,
    ei, eg, eo, gates_apply,
    Ideal.hostDivf_def, Ideal.addf_def, Ideal.hostUnary_exp_def, Ideal.hostNegf_def, Ideal.negf_def,
    Ideal.hostUnary_tanh_def, Ideal.mulf_def, Ideal.ofBits_def, logistic_spelt]
  rfl

end Cert.ReferenceIdeal.RefValue

end
-- ==== Proof.lean ====
/- The proof of `Cert.Claim`: an LSTM cell step from a zero state, every (batch, time) position separately.

   Both programs compute, at result index (b, c, t), the value
       sigma(o) * tanh(sigma(i) * tanh(g)),
   where i, g, o are gate rows c, 6 + c and 9 + c of the input weights against the three channels of the input at
   (b, ·, t), plus the two bias vectors' entries of that row (the forget gate and the recurrent weights meet a zero
   state and drop out of both). The kernel forms each pre-activation as three scalar-times-plane products added
   left to right plus the pre-added biases, 2048 batch entries per grid point; the reference contracts the
   channel axis in one product, adds the biases one after the other and spells the logistic function with a
   quotient and an exponential. Over the extended reals the two agree by associativity and commutativity of
   addition and commutativity of multiplication alone, so the precondition is not used.
   The specification is LstmCell.lean; that the reference is it, RefSide.lean; that the kernel's block is it,
   KernelBody.lean, and its whole array, KernelArray.lean. The three frames are the generated ones (the
   reference's its generated run with the result dropped), and the idealization rewrote nothing. -/
import proofs.«129223_j25434796327365_1_alg».proof.Defs
import proofs.«129223_j25434796327365_1_alg».proof.Proof.Gen.Kernel
import proofs.«129223_j25434796327365_1_alg».proof.Proof.Gen.Kernel.Skeleton
import proofs.«129223_j25434796327365_1_alg».proof.Proof.Gen.Kernel.Launch
import proofs.«129223_j25434796327365_1_alg».proof.Proof.Gen.Kernel.Points
import proofs.«129223_j25434796327365_1_alg».proof.Proof.Gen.Kernel.Frame
import proofs.«129223_j25434796327365_1_alg».proof.Proof.Gen.KernelIdeal
import proofs.«129223_j25434796327365_1_alg».proof.Proof.Gen.KernelIdeal.Skeleton
import proofs.«129223_j25434796327365_1_alg».proof.Proof.Gen.KernelIdeal.Launch
import proofs.«129223_j25434796327365_1_alg».proof.Proof.Gen.KernelIdeal.Points
import proofs.«129223_j25434796327365_1_alg».proof.Proof.Gen.KernelIdeal.Frame
import proofs.«129223_j25434796327365_1_alg».proof.Proof.Gen.ReferenceIdeal
import proofs.«129223_j25434796327365_1_alg».proof.Proof.Gen.Pre_finite_inputs
import proofs.«129223_j25434796327365_1_alg».proof.Proof.Gen.KernelIdeal.Value
import proofs.«129223_j25434796327365_1_alg».proof.Proof.Gen.ReferenceIdeal.Run
import proofs.«129223_j25434796327365_1_alg».proof.Proof.Gen.ReferenceIdeal.Read
import proofs.«129223_j25434796327365_1_alg».proof.Proof.KernelArray
import proofs.«129223_j25434796327365_1_alg».proof.Proof.RefSide
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the specification's `out` of the input, the
    input weights and the two biases in their result arrays. -/
theorem algebraic : Cert.algebraic_KernelIdeal_ReferenceIdeal := by
  intro m ρ m' ρ' _ hagree
  refine ⟨fun c => Cert.LstmStep.out (Cert.KernelIdeal.Whole.argX m c) (Cert.KernelIdeal.Whole.argW m c)
    (Cert.KernelIdeal.Whole.argB1 m c) (Cert.KernelIdeal.Whole.argB2 m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.2.1, (hagree c).2.2.2.2]
  exact Cert.ReferenceIdeal.RefValue.ref_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
